-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S256x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S256x4096 : Shape := ⟨2, ![256, 4096]⟩
abbrev S4096x4096 : Shape := ⟨2, ![4096, 4096]⟩
abbrev S4096 : Shape := ⟨1, ![4096]⟩
abbrev S256x512 : Shape := ⟨2, ![256, 512]⟩
abbrev S1024x512 : Shape := ⟨2, ![1024, 512]⟩
abbrev S1024 : Shape := ⟨1, ![1024]⟩
abbrev S256x1024 : Shape := ⟨2, ![256, 1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S256x4096, .f32⟩
  | .local _ .vmem, ⟨0, _⟩ => ⟨S256x512, .f32⟩
  | .local _ .vmem, ⟨1, _⟩ => ⟨S256x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024, .f32⟩
  | .local _ .vmem, ⟨9, _⟩ => ⟨S1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x512_S1024x512_0_0 : ∀ a, (![0, 0] : Fin 2 → Nat) a + S1024x512.size a ≤ S1024x512.size a
  h_S1024x512 : 0 < S1024x512.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x512_S1024x512_S256x1024_1_1_0_0_n_n_wf : DotDims.WF S256x512 S1024x512 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x4096.size a
  hwx0_0 : ∀ i : grid0.Coords, EltTy.bits .f32 = 32 ∨ (Rect.block (s := S256x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S4096.size a
  hwx0_6 : ∀ i : grid0.Coords, EltTy.bits .f32 = 32 ∨ (Rect.block (s := S4096) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x4096.size a
  hwx0_7 : ∀ i : grid0.Coords, EltTy.bits .f32 = 32 ∨ (Rect.block (s := S256x4096) S256x1024.size (cc0_transform_7 i) (hinb0_7 i)).WholeWords (EltTy.packing .f32)

variable [Facts₀]

def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S256x4096, .f32⟩
  | .hbm, ⟨20, _⟩ => ⟨S1x4096, .f32⟩
  | .hbm, ⟨21, _⟩ => ⟨S256x4096, .f32⟩
  | .hbm, ⟨22, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  dot_S256x4096_S4096x4096_S256x4096_1_1_0_0_n_n_wf : DotDims.WF S256x4096 S4096x4096 S256x4096 [1] [1] [0] [0] [] []

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.Spec.lean ====
/- The reparameterized linear layer, as one function of its seven argument arrays.

   A weight (or a bias entry) is sampled as  mean + noise · exp (logvar / 2);  the layer's output at (b, o) is the
   product of row b of x with row o of the sampled weight matrix, plus the sampled bias at o:

       out (b, o) = (Σ k < 4096, x (b, k) · W (o, k)) + β o.

   The contraction axis of length 4096 can be walked in 8 consecutive blocks of 512: a sum over a commutative
   monoid does not depend on the grouping, so the blocked running sum from zero is the plain sum (no finiteness of
   the entries is needed: the extended reals' addition is commutative and associative everywhere). -/
import Idealize.ShloMosaic.PureOps.Ideal
import Idealize.ShloMosaic.Lib.ValueIdx
import proofs.«119402_j2104533975291_1_alg».proof.Proof.LibBlockSum

noncomputable section

namespace Cert.SampledLinear

open Idealize.ShloMosaic Idealize.ShloMosaic.ValueIdx
open scoped BigOperators

/-- One sampled parameter: the mean plus the noise scaled by the standard deviation exp (logvar / 2); the factor
    one half is the f32 word both programs print. -/
def sample (mu lv eps : EReal) : EReal := mu + eps * Ideal.exp (Ideal.ofBits .f32 0x3F000000#32 * lv)

/-- The sampled weight at (o, k). -/
def weight (wmu wlv weps : (⟨2, ![4096, 4096]⟩ : Shape).Idx → EReal) (o k : Fin 4096) : EReal :=
  sample (wmu (ix2 o k)) (wlv (ix2 o k)) (weps (ix2 o k))

/-- The sampled bias at o. -/
def bias (bmu blv beps : (⟨1, ![4096]⟩ : Shape).Idx → EReal) (o : Fin 4096) : EReal :=
  sample (bmu (ix1 o)) (blv (ix1 o)) (beps (ix1 o))

/-- The layer's output array. -/
def out (x : (⟨2, ![256, 4096]⟩ : Shape).Idx → EReal) (wmu wlv weps : (⟨2, ![4096, 4096]⟩ : Shape).Idx → EReal)
    (bmu blv beps : (⟨1, ![4096]⟩ : Shape).Idx → EReal) : (⟨2, ![256, 4096]⟩ : Shape).Idx → EReal :=
  fun i => (∑ k : Fin 4096, x (ix2 (i 0) k) * weight wmu wlv weps (i 1) k) + bias bmu blv beps (i 1)

/-- Position r of the s-th block of 512 along the contraction axis. -/
abbrev kpos (s : Fin 8) (r : Fin 512) : Fin 4096 := Cert.BlockSum.pos (B := 8) (R := 512) (N := 4096) rfl s r

theorem kpos_val (s : Fin 8) (r : Fin 512) : (kpos s r).val = 512 * s.val + r.val := rfl

/-- The blocked running sum from zero over the first 8 blocks is the whole sum. -/
theorem blocked_sum (f : Fin 4096 → EReal) (g : ℕ → EReal)
    (hg : ∀ s : Fin 8, g s.val = ∑ r : Fin 512, f (kpos s r)) :
    (0 : EReal) + ∑ s ∈ Finset.range 8, g s = ∑ k : Fin 4096, f k := by
  rw [zero_add, Cert.BlockSum.sum_range_eq_sum_fin 8 g, ← Cert.BlockSum.sum_blocks (B := 8) (R := 512) (N := 4096) rfl f]
  exact Finset.sum_congr rfl fun s _ => hg s

end Cert.SampledLinear

end
-- ==== Proof.RefIsSpec.lean ====
/- The reference computes the layer's output function.

   Read one operation at a time: the sampled weight matrix and the sampled bias vector are the pointwise
   mean + noise · exp (logvar / 2); the host's product contracts the second axis of x with the second axis of the
   weight matrix, so entry (b, o) is the sum over k of x (b, k) · W (o, k); the bias is broadcast along the rows. -/
import proofs.«119402_j2104533975291_1_alg».proof.Proof.Gen.ReferenceIdeal.Read
import proofs.«119402_j2104533975291_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SampledLinear
open scoped BigOperators

/-- The reference's weight stage at an index is the sampled weight there. -/
theorem weight_stage (x1 x2 x5 : (⟨S4096x4096, .f32⟩ : BufTy).Contents (Elt Ideal)) (j : S4096x4096.Idx) :
    val_main_v4 (F := Ideal) x1 x2 x5 j = sample (x1 j) (x2 j) (x5 j) := by
  rw [val_main_v4_apply, val_main_v3_apply, val_main_v2_apply, val_main_v1_apply, val_main_v0_apply, val_main_cst_apply]
  rfl

/-- The reference's bias stage at an index is the sampled bias there. -/
theorem bias_stage (x3 x4 x6 : (⟨S4096, .f32⟩ : BufTy).Contents (Elt Ideal)) (j : S4096.Idx) :
    val_main_v9 (F := Ideal) x3 x4 x6 j = sample (x3 j) (x4 j) (x6 j) := by
  rw [val_main_v9_apply, val_main_v8_apply, val_main_v7_apply, val_main_v6_apply, val_main_v5_apply, val_main_cst_0_apply]
  rfl

/-- The reference's result array is the layer's output function of the seven arguments. -/
theorem result_eq (x0 : (⟨S256x4096, .f32⟩ : BufTy).Contents (Elt Ideal))
    (x1 x2 : (⟨S4096x4096, .f32⟩ : BufTy).Contents (Elt Ideal)) (x3 x4 : (⟨S4096, .f32⟩ : BufTy).Contents (Elt Ideal))
    (x5 : (⟨S4096x4096, .f32⟩ : BufTy).Contents (Elt Ideal)) (x6 : (⟨S4096, .f32⟩ : BufTy).Contents (Elt Ideal)) :
    val_main_v13 (F := Ideal) x0 x1 x2 x3 x4 x5 x6 = out x0 x1 x2 x5 x3 x4 x6 := by
  funext i
  obtain ⟨p, o, rfl⟩ : ∃ (p : Fin 256) (o : Fin 4096), i = ix2 p o := ⟨i 0, i 1, eq_ix2 i⟩
  have el : ∀ k : Fin 4096, lidx_main_v10 (ix2 p o) k = ix2 p k := fun k =>
    funext fun a => Fin.ext (by match a with | ⟨0, _⟩ => rfl | ⟨1, _⟩ => rfl)
  have er : ∀ k : Fin 4096, ridx_main_v10 (ix2 p o) k = ix2 o k := fun k =>
    funext fun a => Fin.ext (by match a with | ⟨0, _⟩ => rfl | ⟨1, _⟩ => rfl)
  have eb : idx_main_v11 (idx_main_v12 (ix2 p o)) = ix1 o :=
    funext fun a => Fin.ext (by match a with | ⟨0, _⟩ => rfl)
  rw [val_main_v13_apply, val_main_v10_apply, val_main_v12_apply, val_main_v11_apply, eb, bias_stage]
  refine congrArg₂ (fun (s b : EReal) => s + b) (Finset.sum_congr rfl fun k _ => ?_) rfl
  rw [el k, er k, weight_stage]
  rfl

end Cert.ReferenceIdeal.RefValue

end
-- ==== Proof.KernelPieces.lean ====
/- What one grid point of the kernel leaves in the accumulator and in the output block, as values.

   The accumulator is a [256, 1024] scratch carried across the eight points of a run along the contraction axis. A
   point's body adds, to what the accumulator holds, the product of the point's x block with the point's sampled
   weight block (one accumulation step); the first point of a run zeroes the accumulator first; the last point also
   writes the output block: the accumulator after its own step, plus the sampled bias block broadcast along the rows.
   Every load and store is of a whole buffer, so each value is the body's arithmetic applied to the buffers' contents. -/
import proofs.«119402_j2104533975291_1_alg».proof.Proof.Gen.KernelIdeal.Value
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- A whole-buffer access starts at the origin: rank 2, -/
theorem zero_origin2 : (![0, 0] : Fin 2 → Nat) = fun _ => 0 := funext fun a => by fin_cases a <;> rfl
/-- and rank 1. -/
theorem zero_origin1 : (![0] : Fin 1 → Nat) = fun _ => 0 := funext fun a => by fin_cases a; rfl

/-- A middle point of a run: the accumulator holding `acc` is left at one accumulation step over `acc`. -/
theorem scratch_mid (c : Dev nD) (i : grid0.Coords) (arg2 : Memref sig .tc .vmem S256x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i) (x0 : Vec F S256x512 .f32) (x1 : Vec F S1024x512 .f32) (x2 : Vec F S1024x512 .f32) (x3 : Vec F S1024x512 .f32) (x4 : Vec F S1024 .f32) (x5 : Vec F S1024 .f32) (x6 : Vec F S1024 .f32) (acc : Vec F S256x1024 .f32) :
    sout0_B_0 c i arg2 harg2 arg3 harg3 arg4 harg4 arg5 harg5 arg6 harg6 arg7 harg7 arg8 harg8 arg9 harg9 arg10 harg10 hc0 hc1 x0 x1 x2 x3 x4 x5 x6 acc = k0_pay2 x1 x3 x2 x0 acc := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 acc)]
  unfold kernelRun0_B
  dsimp only
  sl_unfold_words
  rw [View.canon_unit_zero zero_origin2]
  simp only [View.readAt_eq_ld, harg2.read_unread, harg3.read_unread, harg4.read_unread, harg5.read_unread, harg6.read_unread, harg7.read_unread, harg8.read_unread, harg10.read_unread, View.ld_unit_zero (S := S256x512) zero_origin2, View.ld_unit_zero (S := S1024x512) zero_origin2, View.ld_unit_zero (S := S256x1024) zero_origin2, View.ld_unit_zero (S := S1024) zero_origin1]

/-- The first point of a run: the accumulator is zeroed, read back, and left at one step over the zero block. -/
theorem scratch_first (c : Dev nD) (i : grid0.Coords) (arg2 : Memref sig .tc .vmem S256x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i) (x0 : Vec F S256x512 .f32) (x1 : Vec F S1024x512 .f32) (x2 : Vec F S1024x512 .f32) (x3 : Vec F S1024x512 .f32) (x4 : Vec F S1024 .f32) (x5 : Vec F S1024 .f32) (x6 : Vec F S1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x3 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x1024) zero_origin2, View.readCov_unit_zero (S := S256x1024) _ zero_origin2]
  simp only [View.readAt_eq_ld, harg2.read_unread, harg3.read_unread, harg4.read_unread, harg5.read_unread, harg6.read_unread, harg7.read_unread, harg8.read_unread, harg10.read_unread, View.ld_unit_zero (S := S256x512) zero_origin2, View.ld_unit_zero (S := S1024x512) zero_origin2, View.ld_unit_zero (S := S256x1024) zero_origin2, View.ld_unit_zero (S := S1024) zero_origin1]

/-- The last point of a run leaves the accumulator at one step over `acc`, like a middle point, -/
theorem scratch_last (c : Dev nD) (i : grid0.Coords) (arg2 : Memref sig .tc .vmem S256x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec F S256x512 .f32) (x1 : Vec F S1024x512 .f32) (x2 : Vec F S1024x512 .f32) (x3 : Vec F S1024x512 .f32) (x4 : Vec F S1024 .f32) (x5 : Vec F S1024 .f32) (x6 : Vec F S1024 .f32) (acc : Vec F S256x1024 .f32) :
    sout0_C_0 c i arg2 harg2 arg3 harg3 arg4 harg4 arg5 harg5 arg6 harg6 arg7 harg7 arg8 harg8 arg9 harg9 arg10 harg10 hc0 hc1 x0 x1 x2 x3 x4 x5 x6 acc = k0_pay2 x1 x3 x2 x0 acc := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero zero_origin2]
  simp only [View.readAt_eq_ld, harg2.read_unread, harg3.read_unread, harg4.read_unread, harg5.read_unread, harg6.read_unread, harg7.read_unread, harg8.read_unread, harg10.read_unread, View.ld_unit_zero (S := S256x512) zero_origin2, View.ld_unit_zero (S := S1024x512) zero_origin2, View.ld_unit_zero (S := S256x1024) zero_origin2, View.ld_unit_zero (S := S1024) zero_origin1]

/-- and writes the output block: the bias epilogue of the accumulator it has just stored (read back whole). -/
theorem out_last (c : Dev nD) (i : grid0.Coords) (arg2 : Memref sig .tc .vmem S256x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i) (x0 : Vec F S256x512 .f32) (x1 : Vec F S1024x512 .f32) (x2 : Vec F S1024x512 .f32) (x3 : Vec F S1024x512 .f32) (x4 : Vec F S1024 .f32) (x5 : Vec F S1024 .f32) (x6 : Vec F S1024 .f32) (acc : Vec F S256x1024 .f32) :
    out0_C_7 c i arg2 harg2 arg3 harg3 arg4 harg4 arg5 harg5 arg6 harg6 arg7 harg7 arg8 harg8 arg9 harg9 arg10 harg10 hc0 hc1 x0 x1 x2 x3 x4 x5 x6 acc = k0_pay3 x4 x6 x5 (k0_pay2 x1 x3 x2 x0 acc) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 acc)]
  unfold kernelRun0_C
  dsimp only
  sl_unfold_words
  rw [View.canon_unit_zero zero_origin2]
  simp only [View.readAt_eq_ld, harg2.read_unread, harg3.read_unread, harg4.read_unread, harg5.read_unread, harg6.read_unread, harg7.read_unread, harg8.read_unread, harg10.read_unread, View.ld_unit_zero (S := S256x512) zero_origin2, View.ld_unit_zero (S := S1024x512) zero_origin2, View.ld_unit_zero (S := S256x1024) zero_origin2, View.ld_unit_zero (S := S1024) zero_origin1, View.readCov_unit_zero (S := S256x1024) _ zero_origin2]

end Cert.KernelIdeal.Pieces

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.DotRows.lean ====
/- A matrix product whose two operands are both contracted along their second axis, read at one index.

   Entry (a, b) of the product of an [M, K] operand and an [N, K] operand, contracted along K, is the sum over k of
   l (a, k) · r (b, k): a row of the left operand against a row of the right one (x · wᵀ with no transpose made).
   The matrix unit's product into a zero accumulator is that sum. -/
import proofs.«119402_j2104533975291_1_alg».proof.Proof.LibDotPlain

noncomputable section

namespace Cert.DotRows

open Idealize.ShloMosaic Idealize.ShloMosaic.ValueIdx Cert.DotPlain
open scoped BigOperators

/-- Rows times rows: the contraction sum at (a, b) is the sum over k of l (a, k) · r (b, k). -/
theorem sum_rows_rows {M K N : Nat} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (l : (⟨2, ![M, K]⟩ : Shape).Idx → EReal) (r : (⟨2, ![N, K]⟩ : Shape).Idx → EReal) (a : Fin M) (b : Fin N) :
    (∑ k : d.contr.Idx, l (d.lhsIdx (ix2 a b) k) * r (d.rhsIdx (ix2 a b) k)) = ∑ k : Fin K, l (ix2 a k) * r (ix2 b k) := by
  have hr : d.contr.rank = 1 := contr_rank_one d hlc
  have hs : d.contr.size ⟨0, by omega⟩ = K := contr_size_zero d hlc
  -- re-index the sum by the one contraction coordinate; each operand's second axis is the contracted one, and its
  -- first axis carries the result's row (left) or column (right)
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 b k := by
    funext ax
    match ax with
    | ⟨0, _⟩ => exact Fin.ext (rhsIdx_val_nonContr d hlb hrb hln hrn _ _ Nat.one_lt_two)
    | ⟨1, _⟩ => exact Fin.ext ((d.rhsIdx_val_of_single hrc _ _).trans (contrEquiv1_symm_val d K hr hs k))
  rw [hl, hrr]

/-- The kernel's product into the zero accumulator, rows times rows, at an index. -/
theorem matmul_zero_rows_rows {M K N : Nat} {φ₁ φ₂ : FTy} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (sum_rows_rows d hlb hrb hlc hrc hln hrn l r a b)

end Cert.DotRows

end
-- ==== Proof.KernelArith.lean ====
/- The body's arithmetic at one entry, over the extended reals.

   One accumulation step at (p, q): the accumulator there plus the sum over the block's 512 contraction positions of
   x (p, r) times the sampled weight (q, r) — a change of float format is the identity, and the matrix unit's product
   into a zero accumulator, both operands contracted along their second axis, is that sum. The zero block is 0. The
   bias epilogue at (p, q): the accumulator there plus the sampled bias at q (a [1024] vector seen as one row and
   repeated down the 256 rows). -/
import proofs.«119402_j2104533975291_1_alg».proof.Proof.Gen.KernelIdeal.Skeleton
import proofs.«119402_j2104533975291_1_alg».proof.Proof.Spec
import proofs.«119402_j2104533975291_1_alg».proof.Proof.DotRows
import Idealize.ShloMosaic.Lib.ValueLayout
import Idealize.ShloMosaic.Lib.Pipeline.Value
import Idealize.ShloMosaic.PureOps.Ideal.Laws

noncomputable section

namespace Cert.KernelIdeal.Arith

open Cert.KernelIdeal Cert.KernelIdeal.Gen Idealize.ShloMosaic Idealize.ShloMosaic.ValueIdx Cert.SampledLinear
open scoped BigOperators

/-- The block the first point of a run stores is zero everywhere. -/
theorem zero_apply (j : S256x1024.Idx) : (k0_pay1 (F := Ideal) j : EReal) = 0 := by
  unfold k0_pay1
  rw [shapeCast_self]
  exact Ideal.ofBits_zero_f32

/-- One accumulation step at (p, q). -/
theorem step_apply (wm we wl : Vec Ideal S1024x512 .f32) (xb : Vec Ideal S256x512 .f32) (acc : Vec Ideal S256x1024 .f32)
    (p : Fin 256) (q : Fin 1024) :
    (k0_pay2 (F := Ideal) wm we wl xb acc (ix2 p q) : EReal)
      = acc (ix2 p q) + ∑ r : Fin 512, xb (ix2 p r) * sample (wm (ix2 q r)) (wl (ix2 q r)) (we (ix2 q r)) := by
  unfold k0_pay2
  rw [shapeCast_self]
  refine congrArg (fun s : EReal => (acc (ix2 p q) : EReal) + s) ?_
  refine (Cert.DotRows.matmul_zero_rows_rows dot_S256x512_S1024x512_S256x1024_1_1_0_0_n_n rfl rfl rfl rfl rfl rfl none _ _ p q).trans ?_
  rfl

/-- The bias epilogue at (p, q). -/
theorem epilogue_apply (bm be bl : Vec Ideal S1024 .f32) (acc : Vec Ideal S256x1024 .f32) (p : Fin 256) (q : Fin 1024) :
    (k0_pay3 (F := Ideal) bm be bl acc (ix2 p q) : EReal)
      = acc (ix2 p q) + sample (bm (ix1 q)) (bl (ix1 q)) (be (ix1 q)) := by
  unfold k0_pay3
  refine congrArg (fun s : EReal => (acc (ix2 p q) : EReal) + s) ?_
  refine (broadcastTo_1b_ab_apply _ _ p q).trans ?_
  refine (shapeCast_a_1a_apply _ _ 0 q).trans ?_
  rfl

end Cert.KernelIdeal.Arith

end
-- ==== Proof.BlockReads.lean ====
/- The windows' blocks, read at an entry of their arrays.

   The grid has 4 × 8 points, walked row-major: point t is output-column block t / 8 and contraction block t % 8.
   At point t the x window holds columns 512·(t % 8) … of x; a weight window holds rows 1024·(t / 8) … and columns
   512·(t % 8) … of its matrix; a bias window holds entries 1024·(t / 8) … of its vector; the output window is columns
   1024·(t / 8) … of the result. A block's coordinate along an axis is always block index × block size + the coordinate
   inside the block. -/
import proofs.«119402_j2104533975291_1_alg».proof.Proof.Gen.KernelIdeal.Value
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The contraction position of entry r of point t's block: 512 · (t % 8) + r. -/
def col (t : Fin cfg0.N) (r : Fin 512) : Fin 4096 :=
  ⟨512 * (t.val % 8) + r.val, by have := r.isLt; omega⟩

/-- The output column (weight row, bias entry) of entry q of point t's block: 1024 · (t / 8) + q. -/
def row (t : Fin cfg0.N) (q : Fin 1024) : Fin 4096 :=
  ⟨1024 * (t.val / 8) + q.val, by have := q.isLt; have := t.isLt; have : cfg0.N = 32 := N_0; omega⟩

theorem col_val (t : Fin cfg0.N) (r : Fin 512) : (col t r).val = 512 * (t.val % 8) + r.val := rfl
theorem row_val (t : Fin cfg0.N) (q : Fin 1024) : (row t q).val = 1024 * (t.val / 8) + q.val := rfl

/-- The printed index maps, decided once over the grid's 32 points. -/
theorem idx_x : ∀ t : Fin cfg0.N, win0_0.index t (0 : Fin 2) = 0 ∧ win0_0.index t (1 : Fin 2) = t.val % 8 :=
  (by decide +kernel : ∀ t : Fin grid0.N, win0_0.index t (0 : Fin 2) = 0 ∧ win0_0.index t (1 : Fin 2) = t.val % 8)
theorem idx_wmu : ∀ t : Fin cfg0.N, win0_1.index t (0 : Fin 2) = t.val / 8 ∧ win0_1.index t (1 : Fin 2) = t.val % 8 :=
  (by decide +kernel : ∀ t : Fin grid0.N, win0_1.index t (0 : Fin 2) = t.val / 8 ∧ win0_1.index t (1 : Fin 2) = t.val % 8)
theorem idx_wlv : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)
theorem idx_weps : ∀ t : Fin cfg0.N, win0_3.index t (0 : Fin 2) = t.val / 8 ∧ win0_3.index t (1 : Fin 2) = t.val % 8 :=
  (by decide +kernel : ∀ t : Fin grid0.N, win0_3.index t (0 : Fin 2) = t.val / 8 ∧ win0_3.index t (1 : Fin 2) = t.val % 8)
theorem idx_bmu : ∀ t : Fin cfg0.N, win0_4.index t (0 : Fin 1) = t.val / 8 :=
  (by decide +kernel : ∀ t : Fin grid0.N, win0_4.index t (0 : Fin 1) = t.val / 8)
theorem idx_blv : ∀ t : Fin cfg0.N, win0_5.index t (0 : Fin 1) = t.val / 8 :=
  (by decide +kernel : ∀ t : Fin grid0.N, win0_5.index t (0 : Fin 1) = t.val / 8)
theorem idx_beps : ∀ t : Fin cfg0.N, win0_6.index t (0 : Fin 1) = t.val / 8 :=
  (by decide +kernel : ∀ t : Fin grid0.N, win0_6.index t (0 : Fin 1) = t.val / 8)
theorem idx_out : ∀ t : Fin cfg0.N, win0_7.index t (0 : Fin 2) = 0 ∧ win0_7.index t (1 : Fin 2) = t.val / 8 :=
  (by decide +kernel : ∀ t : Fin grid0.N, win0_7.index t (0 : Fin 2) = 0 ∧ win0_7.index t (1 : Fin 2) = t.val / 8)

/-- The x block at point t, entry (p, r), is x (p, 512 · (t % 8) + r). -/
theorem x_read (c : Dev nD) (t : Fin cfg0.N) (p : Fin 256) (r : Fin 512) :
    (iblk m c 0 t : Vec F S256x512 .f32) (ix2 p r) = (V m c main_arg0 : Vec F S256x4096 .f32) (ix2 p (col t r)) := by
  obtain ⟨e0, e1⟩ := idx_x t
  unfold iblk
  rw [View.read_apply]
  show V m c main_arg0 _ = V m c main_arg0 _
  congr 1
  funext a
  apply Fin.ext
  match a with
  | ⟨0, _⟩ => show win0_0.index t (0 : Fin 2) * 256 + 1 * p.val = p.val; omega
  | ⟨1, _⟩ => show win0_0.index t (1 : Fin 2) * 512 + 1 * r.val = 512 * (t.val % 8) + r.val; omega

/-- Window 1's block at point t, entry (q, r), is its matrix at (1024 · (t / 8) + q, 512 · (t % 8) + r). -/
theorem wmu_read (c : Dev nD) (t : Fin cfg0.N) (q : Fin 1024) (r : Fin 512) :
    (iblk m c 1 t : Vec F S1024x512 .f32) (ix2 q r) = (V m c main_arg1 : Vec F S4096x4096 .f32) (ix2 (row t q) (col t r)) := by
  obtain ⟨e0, e1⟩ := idx_wmu t
  unfold iblk
  rw [View.read_apply]
  show V m c main_arg1 _ = V m c main_arg1 _
  congr 1
  funext a
  apply Fin.ext
  match a with
  | ⟨0, _⟩ => show win0_1.index t (0 : Fin 2) * 1024 + 1 * q.val = 1024 * (t.val / 8) + q.val; omega
  | ⟨1, _⟩ => show win0_1.index t (1 : Fin 2) * 512 + 1 * r.val = 512 * (t.val % 8) + r.val; omega

/-- Window 2's block at point t, entry (q, r), is its matrix at (1024 · (t / 8) + q, 512 · (t % 8) + r). -/
theorem wlv_read (c : Dev nD) (t : Fin cfg0.N) (q : Fin 1024) (r : Fin 512) :
    (iblk m c 2 t : Vec F S1024x512 .f32) (ix2 q r) = (V m c main_arg2 : Vec F S4096x4096 .f32) (ix2 (row t q) (col t r)) := by
  obtain ⟨e0, e1⟩ := idx_wlv t
  unfold iblk
  rw [View.read_apply]
  show V m c main_arg2 _ = V m c main_arg2 _
  congr 1
  funext a
  apply Fin.ext
  match a with
  | ⟨0, _⟩ => show win0_2.index t (0 : Fin 2) * 1024 + 1 * q.val = 1024 * (t.val / 8) + q.val; omega
  | ⟨1, _⟩ => show win0_2.index t (1 : Fin 2) * 512 + 1 * r.val = 512 * (t.val % 8) + r.val; omega

/-- Window 3's block at point t, entry (q, r), is its matrix at (1024 · (t / 8) + q, 512 · (t % 8) + r). -/
theorem weps_read (c : Dev nD) (t : Fin cfg0.N) (q : Fin 1024) (r : Fin 512) :
    (iblk m c 3 t : Vec F S1024x512 .f32) (ix2 q r) = (V m c main_arg5 : Vec F S4096x4096 .f32) (ix2 (row t q) (col t r)) := by
  obtain ⟨e0, e1⟩ := idx_weps t
  unfold iblk
  rw [View.read_apply]
  show V m c main_arg5 _ = V m c main_arg5 _
  congr 1
  funext a
  apply Fin.ext
  match a with
  | ⟨0, _⟩ => show win0_3.index t (0 : Fin 2) * 1024 + 1 * q.val = 1024 * (t.val / 8) + q.val; omega
  | ⟨1, _⟩ => show win0_3.index t (1 : Fin 2) * 512 + 1 * r.val = 512 * (t.val % 8) + r.val; omega

/-- Window 4's block at point t, entry q, is its vector at 1024 · (t / 8) + q. -/
theorem bmu_read (c : Dev nD) (t : Fin cfg0.N) (q : Fin 1024) :
    (iblk m c 4 t : Vec F S1024 .f32) (ix1 q) = (V m c main_arg3 : Vec F S4096 .f32) (ix1 (row t q)) := by
  have e0 := idx_bmu t
  unfold iblk
  rw [View.read_apply]
  show V m c main_arg3 _ = V m c main_arg3 _
  congr 1
  funext a
  apply Fin.ext
  match a with
  | ⟨0, _⟩ => show win0_4.index t (0 : Fin 1) * 1024 + 1 * q.val = 1024 * (t.val / 8) + q.val; omega

/-- Window 5's block at point t, entry q, is its vector at 1024 · (t / 8) + q. -/
theorem blv_read (c : Dev nD) (t : Fin cfg0.N) (q : Fin 1024) :
    (iblk m c 5 t : Vec F S1024 .f32) (ix1 q) = (V m c main_arg4 : Vec F S4096 .f32) (ix1 (row t q)) := by
  have e0 := idx_blv t
  unfold iblk
  rw [View.read_apply]
  show V m c main_arg4 _ = V m c main_arg4 _
  congr 1
  funext a
  apply Fin.ext
  match a with
  | ⟨0, _⟩ => show win0_5.index t (0 : Fin 1) * 1024 + 1 * q.val = 1024 * (t.val / 8) + q.val; omega

/-- Window 6's block at point t, entry q, is its vector at 1024 · (t / 8) + q. -/
theorem beps_read (c : Dev nD) (t : Fin cfg0.N) (q : Fin 1024) :
    (iblk m c 6 t : Vec F S1024 .f32) (ix1 q) = (V m c main_arg6 : Vec F S4096 .f32) (ix1 (row t q)) := by
  have e0 := idx_beps t
  unfold iblk
  rw [View.read_apply]
  show V m c main_arg6 _ = V m c main_arg6 _
  congr 1
  funext a
  apply Fin.ext
  match a with
  | ⟨0, _⟩ => show win0_6.index t (0 : Fin 1) * 1024 + 1 * q.val = 1024 * (t.val / 8) + q.val; omega

end Cert.KernelIdeal.Blocks

end
-- ==== Proof.ScratchFold.lean ====
/- The accumulator across a run of eight points, as a sum.

   Point t adds to the accumulator, at (p, q), the partial product over its block of the contraction axis:
   the sum over r < 512 of x (p, 512·(t % 8) + r) · W (1024·(t / 8) + q, 512·(t % 8) + r), W the sampled weight
   matrix of the launch's arguments. The first point of a run (t % 8 = 0) starts from the zero block, every other
   point from what the point before left. So after point t the accumulator holds 0 plus the addends of the points
   8·(t / 8) … t: the generated fold of the carried scratch, unrolled by the library's lemma for additive folds. -/
import proofs.«119402_j2104533975291_1_alg».proof.Proof.KernelPieces
import proofs.«119402_j2104533975291_1_alg».proof.Proof.KernelArith
import proofs.«119402_j2104533975291_1_alg».proof.Proof.BlockReads

noncomputable section

namespace Cert.KernelIdeal.Fold

open Cert.KernelIdeal Cert.KernelIdeal.Gen Idealize.ShloMosaic Idealize.ShloMosaic.TcCoe Idealize.SL.Sem
open Idealize.ShloMosaic.ValueIdx Cert.SampledLinear Cert.KernelIdeal.Blocks
open scoped BigOperators

variable (m : (ℓ : Loc nD τ sig) → Buf (Elt Ideal) ℓ)

/-- x of the launch's arguments. -/
abbrev X (c : Dev nD) : (⟨2, ![256, 4096]⟩ : Shape).Idx → EReal := V m c main_arg0

/-- The sampled weight matrix of the launch's arguments, at (o, k). -/
abbrev W (c : Dev nD) (o k : Fin 4096) : EReal := weight (V m c main_arg1) (V m c main_arg2) (V m c main_arg5) o k

/-- What point n adds to the accumulator at (p, q): the partial product over the point's contraction block
    (a function of every natural; past the grid it is 0 and never used). -/
def addend (c : Dev nD) (n : ℕ) (p : Fin 256) (q : Fin 1024) : EReal :=
  if h : n < cfg0.N then
    ∑ r : Fin 512, X m c (ix2 p (col ⟨n, h⟩ r)) * W m c (row ⟨n, h⟩ q) (col ⟨n, h⟩ r)
  else 0

/-- One accumulation step at point t, on the point's blocks: the accumulator plus the point's addend. -/
theorem step_at (c : Dev nD) (t : Fin cfg0.N) (acc : Vec Ideal S256x1024 .f32) (p : Fin 256) (q : Fin 1024) :
    (k0_pay2 (F := Ideal) (iblk m c 1 t) (iblk m c 3 t) (iblk m c 2 t) (iblk m c 0 t) acc (ix2 p q) : EReal)
      = acc (ix2 p q) + addend m c t.val p q := by
  refine (Arith.step_apply (iblk m c 1 t) (iblk m c 3 t) (iblk m c 2 t) (iblk m c 0 t) acc p q).trans ?_
  unfold addend
  rw [dif_pos t.isLt]
  refine congrArg (fun s : EReal => (acc (ix2 p q) : EReal) + s) (Finset.sum_congr rfl fun r _ => ?_)
  rw [x_read m c t p r, wmu_read m c t q r, wlv_read m c t q r, weps_read m c t q r]
  rfl

/-- At the first point of a run the accumulator is left at zero plus the point's addend, whatever it held. -/
theorem first_point (c : Dev nD) (t : Fin cfg0.N) (h0 : t.val % 8 = 0) (acc : Vec Ideal S256x1024 .f32) (j : S256x1024.Idx) :
    (Value.scAt0_0 m c t.val t.isLt acc j : EReal) = 0 + addend m c t.val (j 0) (j 1) := by
  have h1 : ¬t.val % 8 = 7 := by omega
  obtain ⟨p, q, rfl⟩ : ∃ (p : Fin 256) (q : Fin 1024), j = ix2 p q := ⟨j 0, j 1, eq_ix2 j⟩
  unfold Value.scAt0_0
  rw [dif_pos h0, dif_neg h1]
  refine (congrFun (Pieces.scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) (ix2 p q)).trans ?_
  refine (step_at m c t _ p q).trans ?_
  rw [Arith.zero_apply]

/-- At every other point the accumulator is left at what it held plus the point's addend. -/
theorem later_point (c : Dev nD) (t : Fin cfg0.N) (h0 : ¬t.val % 8 = 0) (acc : Vec Ideal S256x1024 .f32) (j : S256x1024.Idx) :
    (Value.scAt0_0 m c t.val t.isLt acc j : EReal) = acc j + addend m c t.val (j 0) (j 1) := by
  obtain ⟨p, q, rfl⟩ : ∃ (p : Fin 256) (q : Fin 1024), j = ix2 p q := ⟨j 0, j 1, eq_ix2 j⟩
  unfold Value.scAt0_0
  rw [dif_neg h0]
  by_cases h1 : t.val % 8 = 7
  · rw [dif_pos h1]
    refine (congrFun (Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc) (ix2 p q)).trans ?_
    exact step_at m c t acc p q
  · rw [dif_neg h1]
    refine (congrFun (Pieces.scratch_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc) (ix2 p q)).trans ?_
    exact step_at m c t acc p q

/-- After point t the accumulator holds, at (p, q), zero plus the addends of the run's points up to t. -/
theorem scratch_after (c : Dev nD) (t : Fin cfg0.N) (p : Fin 256) (q : Fin 1024) :
    ((outsAt0 m c t.val t.isLt).2 (ix2 p q) : EReal)
      = 0 + ∑ s ∈ Finset.range (t.val % 8 + 1), addend m c (8 * (t.val / 8) + s) p q := by
  rw [Value.soutsAt0_0_eq m c t]
  refine Pipeline.accAt_add_apply (β := EReal) _ _ (fun _ => 0) (fun n j => addend m c n (j 0) (j 1)) (8 * (t.val / 8)) 7
    (fun h i => first_point m c ⟨8 * (t.val / 8), h⟩ (Nat.mul_mod_right 8 _) _ i)
    (fun n h acc i hlo hhi => later_point m c ⟨n, h⟩ (by show ¬n % 8 = 0; omega) acc i)
    (t.val % 8) (by omega) _ (ix2 p q)

end Cert.KernelIdeal.Fold

end
-- ==== Proof.KernelValue.lean ====
/- The kernel's result array is the layer's output function of its arguments.

   Only the last point of a run (t % 8 = 7) writes its output block back. What it holds at (p, q) is the accumulator
   after the run's eight steps — zero plus the eight blocks' partial products, which regroup to the whole sum over the
   contraction axis — plus the sampled bias at the block's column 1024·(t / 8) + q: the layer's output at
   (p, 1024·(t / 8) + q). The four written blocks are the four column blocks of the result, so together they cover it. -/
import proofs.«119402_j2104533975291_1_alg».proof.Proof.ScratchFold

noncomputable section

namespace Cert.KernelIdeal.LayerValue

open Cert.KernelIdeal Cert.KernelIdeal.Gen Idealize.ShloMosaic Idealize.ShloMosaic.TcCoe Idealize.SL.Sem
open Idealize.ShloMosaic.ValueIdx Cert.SampledLinear Cert.KernelIdeal.Blocks Cert.KernelIdeal.Fold
open Idealize.ShloMosaic.Pipeline (Dat)
open scoped BigOperators

variable (m : (ℓ : Loc nD τ sig) → Buf (Elt Ideal) ℓ) (ρ : Dev nD → PrngReg)

/-- The layer's output function of the launch's arguments. -/
abbrev result (c : Dev nD) : Buf (Elt Ideal) ((c : Thread nD τ).loc main_v0) :=
  out (V m c main_arg0) (V m c main_arg1) (V m c main_arg2) (V m c main_arg5) (V m c main_arg3) (V m c main_arg4) (V m c main_arg6)

/-- The eight addends of point t's run are the eight blocks of the contraction sum of row p of x against row
    1024·(t / 8) + q of the sampled weights. -/
theorem run_sum (c : Dev nD) (t : Fin cfg0.N) (p : Fin 256) (q : Fin 1024) :
    (0 : EReal) + ∑ s ∈ Finset.range 8, addend m c (8 * (t.val / 8) + s) p q
      = ∑ k : Fin 4096, X m c (ix2 p k) * W m c (row t q) k := by
  refine blocked_sum (fun k => X m c (ix2 p k) * W m c (row t q) k) (fun s => addend m c (8 * (t.val / 8) + s) p q) fun s => ?_
  have hn : 8 * (t.val / 8) + s.val < cfg0.N := by
    have := t.isLt; have := s.isLt; have : cfg0.N = 32 := N_0; omega
  show addend m c (8 * (t.val / 8) + s.val) p q = _
  unfold addend
  rw [dif_pos hn]
  refine Finset.sum_congr rfl fun r _ => ?_
  have hc : col ⟨8 * (t.val / 8) + s.val, hn⟩ r = kpos s r :=
    Fin.ext (by rw [col_val, kpos_val]; show 512 * ((8 * (t.val / 8) + s.val) % 8) + r.val = 512 * s.val + r.val; have := s.isLt; omega)
  have hr : row ⟨8 * (t.val / 8) + s.val, hn⟩ q = row t q :=
    Fin.ext (by rw [row_val, row_val]; show 1024 * ((8 * (t.val / 8) + s.val) / 8) + q.val = 1024 * (t.val / 8) + q.val; have := s.isLt; omega)
  rw [hc, hr]

/-- The output block after the last point of a run, at (p, q), is the layer's output at (p, 1024·(t / 8) + q). -/
theorem out_block (c : Dev nD) (t : Fin cfg0.N) (h7 : t.val % 8 = 7) (p : Fin 256) (q : Fin 1024) :
    ((outsAt0 m c t.val t.isLt).1 (ix2 p q) : EReal) = result m c (ix2 p (row t q)) := by
  have h0 : ¬t.val % 8 = 0 := by omega
  -- the accumulator this point stores is what it is left holding
  have hs : k0_pay2 (F := Ideal) (iblk m c 1 t) (iblk m c 3 t) (iblk m c 2 t) (iblk m c 0 t)
      (outsAt0 m c (t.val - 1) (Nat.lt_of_le_of_lt (Nat.sub_le _ _) t.isLt)).2 = (outsAt0 m c t.val t.isLt).2 := by
    rw [outsAt0_C m c t h0 h7]
    dsimp only
    exact (Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) _).symm
  have ho : (outsAt0 m c t.val t.isLt).1 = k0_pay3 (F := Ideal) (iblk m c 4 t) (iblk m c 6 t) (iblk m c 5 t) (outsAt0 m c t.val t.isLt).2 := by
    rw [← hs, outsAt0_C m c t h0 h7]
    dsimp only
    exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) _
  rw [ho]
  refine (Arith.epilogue_apply (iblk m c 4 t) (iblk m c 6 t) (iblk m c 5 t) (outsAt0 m c t.val t.isLt).2 p q).trans ?_
  rw [scratch_after m c t p q, h7, run_sum m c t p q, bmu_read m c t q, blv_read m c t q, beps_read m c t q]
  rfl

/-- What a flushing point writes back is its block of the layer's output. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  obtain ⟨e0, e1⟩ := idx_out t
  rw [Value.flushed7 m c t]
  funext y
  obtain ⟨p, q, rfl⟩ : ∃ (p : Fin 256) (q : Fin 1024), y = ix2 p q := ⟨y 0, y 1, eq_ix2 y⟩
  rw [View.read_apply]
  show (outsAt0 m c t.val t.isLt).1 (ix2 p q) = result m c (((cfg0.win 7).blk t).view.emb (ix2 p q))
  rw [out_block m c t h7 p q]
  congr 1
  funext a
  apply Fin.ext
  match a with
  | ⟨0, _⟩ => show p.val = win0_7.index t (0 : Fin 2) * 256 + 1 * p.val; omega
  | ⟨1, _⟩ => show 1024 * (t.val / 8) + q.val = win0_7.index t (1 : Fin 2) * 1024 + 1 * q.val; omega

/-- An index of the result is in point t's block iff each coordinate is in the block's range on its axis. -/
theorem mem_blk (t : Fin cfg0.N) (i : S256x4096.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0).slice (win0_7.rect t)).set ↔ _
  rw [View.set_slice_whole, Rect.mem_set_unit]
  exact Iff.rfl

/-- Every index of the result lies in the block some flushing point writes: column j is in column block j / 1024,
    written at the last point 8·(j / 1024) + 7 of that block's run. -/
theorem cover (i : S256x4096.Idx) :
    ∃ t : Fin cfg0.N, (cfg0.win 7).flush t = true ∧ i ∈ ((cfg0.win 7).blk t).view.set := by
  have hi0 : (i 0).val < 256 := (i 0).isLt
  have hi1 : (i 1).val < 4096 := (i 1).isLt
  have hN : cfg0.N = 32 := N_0
  let t : Fin cfg0.N := ⟨8 * ((i 1).val / 1024) + 7, by omega⟩
  have ht : t.val = 8 * ((i 1).val / 1024) + 7 := rfl
  obtain ⟨e0, e1⟩ := idx_out t
  refine ⟨t, (flush0_7 t).mpr (by omega), ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- So the result array ends holding the layer's output. -/
theorem final (c : Dev nD) : (dats m 0 c).arrAt 7 cfg0.N = result m c :=
  (dats m 0 c).arrAt_eq_of_cover 7 (result m c) (flushed_eq m c) cover

/-- The kernel's run, read: the result array at the layer's output of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.LayerValue

end
-- ==== Proof.lean ====
/- A linear layer with reparameterized (sampled) weights and bias: the kernel against its jnp reference, over the
   extended reals.

   Both programs compute, from x [256, 4096], the weight means, log-variances and noise [4096, 4096] and the bias
   means, log-variances and noise [4096],

       out (b, o) = (Σ k < 4096, x (b, k) · W (o, k)) + β o,
       W (o, k) = mean (o, k) + noise (o, k) · exp (logvar (o, k) / 2),   β likewise.

   The reference builds W and β whole and contracts x's second axis with W's second axis in one product. The kernel
   walks a 4 × 8 grid: for each block of 1024 output columns it runs over the eight blocks of 512 contraction
   positions, adding each block's partial product into a zeroed accumulator, and after the eighth adds the sampled
   bias block and writes the output block. Over the extended reals a change of float format is the identity and the
   matrix unit's product is the exact sum, so the kernel's value is the blocked running sum from zero, which is the
   whole sum regrouped: addition of extended reals is commutative and associative everywhere, so the inputs'
   finiteness is never used. The constant one half is the same f32 word in both programs.

   The frames are the generated ones (the reference's is its generated run with the result dropped); the ideal pass
   rewrote nothing, so the kernel's idealization is the kernel's own text and that claim is trivial. -/
import proofs.«119402_j2104533975291_1_alg».proof.Defs
import proofs.«119402_j2104533975291_1_alg».proof.Proof.Gen.Kernel
import proofs.«119402_j2104533975291_1_alg».proof.Proof.Gen.Kernel.Skeleton
import proofs.«119402_j2104533975291_1_alg».proof.Proof.Gen.Kernel.Launch
import proofs.«119402_j2104533975291_1_alg».proof.Proof.Gen.Kernel.Points
import proofs.«119402_j2104533975291_1_alg».proof.Proof.Gen.Kernel.Frame
import proofs.«119402_j2104533975291_1_alg».proof.Proof.Gen.KernelIdeal
import proofs.«119402_j2104533975291_1_alg».proof.Proof.Gen.KernelIdeal.Skeleton
import proofs.«119402_j2104533975291_1_alg».proof.Proof.Gen.KernelIdeal.Launch
import proofs.«119402_j2104533975291_1_alg».proof.Proof.Gen.KernelIdeal.Points
import proofs.«119402_j2104533975291_1_alg».proof.Proof.Gen.KernelIdeal.Frame
import proofs.«119402_j2104533975291_1_alg».proof.Proof.Gen.ReferenceIdeal
import proofs.«119402_j2104533975291_1_alg».proof.Proof.Gen.Pre_finite_inputs
import proofs.«119402_j2104533975291_1_alg».proof.Proof.Gen.KernelIdeal.Value
import proofs.«119402_j2104533975291_1_alg».proof.Proof.Gen.ReferenceIdeal.Run
import proofs.«119402_j2104533975291_1_alg».proof.Proof.Gen.ReferenceIdeal.Read
import proofs.«119402_j2104533975291_1_alg».proof.Proof.RefIsSpec
import proofs.«119402_j2104533975291_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments unchanged: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the layer's output function of them (the blocked
    running sums regrouped) and the reference's result is that same function (read one operation at a time). -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
